-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x1024 : Shape := ⟨3, ![128, 128, 1024]⟩
abbrev S128x1024x1024 : Shape := ⟨3, ![128, 1024, 1024]⟩
abbrev S_ : Shape := ⟨0, ![]⟩

class Facts : Prop where
  bcast_S_S128x128x1024 : S_.BroadcastsInDim S128x128x1024 (![] : Fin 0 → Fin S128x128x1024.rank)
  reducesTo_S128x128x1024_S_d0_1_2 : S128x128x1024.ReducesTo [0, 1, 2] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x128x1024 .f32) (main_arg1 : FVec F S128x1024x1024 .f32) : IVec S_ 1 :=
  let main_v0 : FVec F S128x128x1024 .f32 := Host.absf main_arg0
  let main_cst : FVec F S_ .f32 := constant S_ .f32 0x7F800000#32
  let main_v1 : FVec F S128x128x1024 .f32 := broadcastInDim S128x128x1024 ![] bcast_S_S128x128x1024 main_cst
  let main_v2 : IVec S128x128x1024 1 := cmpf .olt main_v0 main_v1
  let main_c : IVec S_ 1 := constantI S_ 1 1#1
  let main_v3 : IVec S_ 1 := (fun x v => Host.reduce IntOp.andi x v reducesTo_S128x128x1024_S_d0_1_2 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x128x1024 : Shape := ⟨3, ![128, 128, 1024]⟩
abbrev S128x1024x1024 : Shape := ⟨3, ![128, 1024, 1024]⟩
abbrev S1x128x1024 : Shape := ⟨3, ![1, 128, 1024]⟩
abbrev S1x1024x1024 : Shape := ⟨3, ![1, 1024, 1024]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x128x1024, .f32⟩
  | .hbm, ⟨3, _⟩ => ⟨S128x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S128x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  reduces_S128x1024_S1024 : S128x1024.Reduces [0] S1024
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  dot_S128x1024_S1024x1024_S128x1024_1_1_0_0_n_n_wf : DotDims.WF S128x1024 S1024x1024 S128x1024 [1] [1] [0] [0] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S128x128x1024.size a
  hwx0_0 : ∀ i : grid0.Coords, EltTy.bits .f32 = 32 ∨ (Rect.block (s := S128x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S128x1024x1024.size a
  hwx0_1 : ∀ i : grid0.Coords, EltTy.bits .f32 = 32 ∨ (Rect.block (s := S128x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S128x128x1024.size a
  hwx0_2 : ∀ i : grid0.Coords, EltTy.bits .f32 = 32 ∨ (Rect.block (s := S128x128x1024) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S128x128x1024.size a
  hwx0_3 : ∀ i : grid0.Coords, EltTy.bits .f32 = 32 ∨ (Rect.block (s := S128x128x1024) S1x128x1024.size (cc0_transform_3 i) (hinb0_3 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x1024 : Shape := ⟨3, ![128, 128, 1024]⟩
abbrev S128x1024x1024 : Shape := ⟨3, ![128, 1024, 1024]⟩
abbrev S128x1024x128 : Shape := ⟨3, ![128, 1024, 128]⟩
abbrev S_ : Shape := ⟨0, ![]⟩
abbrev S128x1024 : Shape := ⟨2, ![128, 1024]⟩
abbrev S128x1024x1 : Shape := ⟨3, ![128, 1024, 1]⟩
abbrev S128x128 : Shape := ⟨2, ![128, 128]⟩
abbrev S128x128x1 : Shape := ⟨3, ![128, 128, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x128x1024, .f32⟩
  | .hbm, ⟨1, _⟩ => ⟨S128x1024x1024, .f32⟩
  | .hbm, ⟨2, _⟩ => ⟨S128x1024x128, .f32⟩
  | .hbm, ⟨3, _⟩ => ⟨S_, .f32⟩
  | .hbm, ⟨4, _⟩ => ⟨S_, .f32⟩
  | .hbm, ⟨5, _⟩ => ⟨S128x1024x128, .f32⟩
  | .hbm, ⟨6, _⟩ => ⟨S128x1024x128, .i1⟩
  | .hbm, ⟨7, _⟩ => ⟨S_, .f32⟩
  | .hbm, ⟨8, _⟩ => ⟨S128x1024x128, .f32⟩
  | .hbm, ⟨9, _⟩ => ⟨S128x1024x128, .f32⟩
  | .hbm, ⟨10, _⟩ => ⟨S128x1024x128, .f32⟩
  | .hbm, ⟨11, _⟩ => ⟨S128x1024x128, .f32⟩
  | .hbm, ⟨12, _⟩ => ⟨S_, .f32⟩
  | .hbm, ⟨13, _⟩ => ⟨S128x1024, .f32⟩
  | .hbm, ⟨14, _⟩ => ⟨S128x1024x1, .f32⟩
  | .hbm, ⟨15, _⟩ => ⟨S128x1024x1, .f32⟩
  | .hbm, ⟨16, _⟩ => ⟨S_, .f32⟩
  | .hbm, ⟨17, _⟩ => ⟨S128x1024x1, .f32⟩
  | .hbm, ⟨18, _⟩ => ⟨S128x1024x1, .f32⟩
  | .hbm, ⟨19, _⟩ => ⟨S128x1024x128, .f32⟩
  | .hbm, ⟨20, _⟩ => ⟨S128x1024x128, .f32⟩
  | .hbm, ⟨21, _⟩ => ⟨S128x128x1024, .f32⟩
  | .hbm, ⟨22, _⟩ => ⟨S_, .f32⟩
  | .hbm, ⟨23, _⟩ => ⟨S128x128x1024, .f32⟩
  | .hbm, ⟨24, _⟩ => ⟨S128x128x1024, .f32⟩
  | .hbm, ⟨25, _⟩ => ⟨S_, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128x1, .f32⟩
  | .hbm, ⟨31, _⟩ => ⟨S128x128x1024, .f32⟩
  | .hbm, ⟨32, _⟩ => ⟨S128x128x1024, .f32⟩
  | .hbm, ⟨33, _⟩ => ⟨S128x128x1024, .f32⟩
  | .hbm, ⟨34, _⟩ => ⟨S_, .f32⟩
  | .hbm, ⟨35, _⟩ => ⟨S128x128, .f32⟩
  | .hbm, ⟨36, _⟩ => ⟨S128x128x1, .f32⟩
  | .hbm, ⟨37, _⟩ => ⟨S128x128x1024, .f32⟩
  | .hbm, ⟨38, _⟩ => ⟨S128x128x1024, .f32⟩
  | .hbm, ⟨39, _⟩ => ⟨S_, .f32⟩
  | .hbm, ⟨40, _⟩ => ⟨S128x128x1024, .f32⟩
  | .hbm, ⟨41, _⟩ => ⟨S128x128x1024, .f32⟩
  | .hbm, ⟨42, _⟩ => ⟨S_, .f32⟩
  | .hbm, ⟨43, _⟩ => ⟨S128x128, .f32⟩
  | .hbm, ⟨44, _⟩ => ⟨S128x128x1, .f32⟩
  | .hbm, ⟨45, _⟩ => ⟨S128x128x1024, .f32⟩
  | .hbm, ⟨46, _⟩ => ⟨S128x128x1024, .f32⟩
  | .hbm, ⟨47, _⟩ => ⟨S_, .f32⟩
  | .hbm, ⟨48, _⟩ => ⟨S128x128x1024, .f32⟩
  | .hbm, ⟨49, _⟩ => ⟨S128x128x1024, .i1⟩
  | .hbm, ⟨50, _⟩ => ⟨S_, .f32⟩
  | .hbm, ⟨51, _⟩ => ⟨S_, .f32⟩
  | .hbm, ⟨52, _⟩ => ⟨S128x128x1024, .f32⟩
  | .hbm, ⟨53, _⟩ => ⟨S128x128x1024, .f32⟩
  | .hbm, ⟨54, _⟩ => ⟨S128x128x1024, .f32⟩
  | .hbm, ⟨55, _⟩ => ⟨S128x128x1024, .f32⟩
  | .hbm, ⟨56, _⟩ => ⟨S_, .f32⟩
  | .hbm, ⟨57, _⟩ => ⟨S128x128, .f32⟩
  | .hbm, ⟨58, _⟩ => ⟨S128x128x1, .f32⟩
  | .hbm, ⟨59, _⟩ => ⟨S128x128x1024, .f32⟩
  | .hbm, ⟨60, _⟩ => ⟨S128x128x1024, .f32⟩
  | .hbm, ⟨61, _⟩ => ⟨S128x128x1024, .f32⟩
  | _, _ => ⟨S128x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_cst_10 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S128x1024x128 : S_.BroadcastsInDim S128x1024x128 (![] : Fin 0 → Fin S128x1024x128.rank)
  reducesTo_S128x1024x128_S128x1024_d2 : S128x1024x128.ReducesTo [2] S128x1024
  h_S_ : 0 < S_.numel
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x128_0_1_2 : S128x1024x1.BroadcastsInDim S128x1024x128 (![0, 1, 2] : Fin 3 → Fin S128x1024x128.rank)
  transposes_S128x1024x128_S128x128x1024_0_2_1 : S128x1024x128.Transposes [0, 2, 1] S128x128x1024
  bcast_S_S128x128x1024 : S_.BroadcastsInDim S128x128x1024 (![] : Fin 0 → Fin S128x128x1024.rank)
  reducesTo_S128x128x1024_S128x128_d2 : S128x128x1024.ReducesTo [2] S128x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128x1_S128x128x1024_0_1_2 : S128x128x1.BroadcastsInDim S128x128x1024 (![0, 1, 2] : Fin 3 → Fin S128x128x1024.rank)
  dot_S128x1024x1024_S128x128x1024_S128x1024x128_2_2_1_1_0_0_wf : DotDims.WF S128x1024x1024 S128x128x1024 S128x1024x128 [2] [2] [1] [1] [0] [0]
  dot_S128x128x1024_S128x1024x1024_S128x128x1024_2_1_1_2_0_0_wf : DotDims.WF S128x128x1024 S128x1024x1024 S128x128x1024 [2] [1] [1] [2] [0] [0]

variable [Facts₀]

def dot_S128x1024x1024_S128x128x1024_S128x1024x128_2_2_1_1_0_0 : DotDims S128x1024x1024 S128x128x1024 S128x1024x128 where
  lhsContracting := [2]
  rhsContracting := [2]
  lhsNonContracting := [1]
  rhsNonContracting := [1]
  lhsBatch := [0]
  rhsBatch := [0]
  wf := dot_S128x1024x1024_S128x128x1024_S128x1024x128_2_2_1_1_0_0_wf
def dot_S128x128x1024_S128x1024x1024_S128x128x1024_2_1_1_2_0_0 : DotDims S128x128x1024 S128x1024x1024 S128x128x1024 where
  lhsContracting := [2]
  rhsContracting := [1]
  lhsNonContracting := [1]
  rhsNonContracting := [2]
  lhsBatch := [0]
  rhsBatch := [0]
  wf := dot_S128x128x1024_S128x1024x1024_S128x128x1024_2_1_1_2_0_0_wf

class Facts : Prop extends Facts₀ where

variable [Facts]
-- ==== Proof.Spec.lean ====
/-
  The attention block of one batch, as functions of two real matrices.

  From a query matrix A (128 rows q, 1024 features d) and a context matrix B (1024 rows c, 1024 features d) the block
  computes, entry by entry over the extended reals:
    the scores  s(q,c) = Σ_d A(q,d)·B(c,d);  the leaky rectifier  l = s if s ≥ 0 else 0.1·s;
    each context column's norm  n(c) = √(0 + Σ_q l(q,c)²) + ε  and the normalised score  a = l / n;
    the temperature  x = 20·a,  the row maximum  m(q) = max(-∞, max_c x(q,c)),  e = exp(x - m),
    the soft-max  p = e / (0 + Σ_c e);  the focal weights  f = 1024·p - (0 + Σ_c p),  h = 1 if f > 0 else 0,
    t = h·p,  the re-normalised attention  r = t / (0 + Σ_c t);  and the weighted context  w(q,d) = Σ_c r(q,c)·B(c,d).
  Both programs compute exactly these; they differ in how the arrays are laid out and in the order of the factors
  of the first product.
-/
import Idealize.ShloMosaic.PureOps.Ideal
import Mathlib.Algebra.BigOperators.Group.Finset.Basic

noncomputable section

open scoped BigOperators

namespace AttnSpec

open Idealize.ShloMosaic

variable (A : Fin 128 → Fin 1024 → EReal) (B : Fin 1024 → Fin 1024 → EReal)

/-- The zero word's value (the sums start from it). -/
abbrev z0 : EReal := Ideal.ofBits .f32 0x00000000#32

/-- The score of query row q against context row c. -/
def sc (q : Fin 128) (c : Fin 1024) : EReal := ∑ d : Fin 1024, A q d * B c d

/-- The leaky rectifier of the score: the score itself where it is at least zero, a tenth of it elsewhere. -/
def lk (q : Fin 128) (c : Fin 1024) : EReal :=
  Scalar.select (Ideal.cmp .oge (sc A B q c) z0) (sc A B q c) (Ideal.ofBits .f32 0x3DCCCCCD#32 * sc A B q c)

/-- The norm of context column c over the query rows, with the small constant added. -/
def nrm (c : Fin 1024) : EReal :=
  Ideal.sqrt (z0 + ∑ q : Fin 128, lk A B q c * lk A B q c) + Ideal.ofBits .f32 0x322BCC77#32

/-- The normalised score times the temperature 20. -/
def xs (q : Fin 128) (c : Fin 1024) : EReal :=
  Ideal.div (lk A B q c) (nrm A B c) * Ideal.ofBits .f32 0x41A00000#32

/-- The maximum of row q (taken from minus infinity, and once more against minus infinity). -/
def mx (q : Fin 128) : EReal :=
  max (Ideal.ofBits .f32 0xFF800000#32)
    ((Finset.univ : Finset (Fin 1024)).fold max (Ideal.ofBits .f32 0xFF800000#32) (fun c => xs A B q c))

/-- The exponential of the shifted score. -/
def ex (q : Fin 128) (c : Fin 1024) : EReal := Ideal.exp (xs A B q c - mx A B q)

/-- The soft-max over the context rows. -/
def sm (q : Fin 128) (c : Fin 1024) : EReal := Ideal.div (ex A B q c) (z0 + ∑ c' : Fin 1024, ex A B q c')

/-- The focal indicator: one where 1024 times the entry exceeds the row's sum, zero elsewhere. -/
def fh (q : Fin 128) (c : Fin 1024) : EReal :=
  Scalar.select (Ideal.cmp .ogt (sm A B q c * Ideal.ofBits .f32 0x44800000#32 - (z0 + ∑ c' : Fin 1024, sm A B q c')) z0)
    (Ideal.ofBits .f32 0x3F800000#32) z0

/-- The kept part of the soft-max. -/
def tm (q : Fin 128) (c : Fin 1024) : EReal := fh A B q c * sm A B q c

/-- The re-normalised attention. -/
def re (q : Fin 128) (c : Fin 1024) : EReal := Ideal.div (tm A B q c) (z0 + ∑ c' : Fin 1024, tm A B q c')

/-- The weighted context. -/
def wc (q : Fin 128) (d : Fin 1024) : EReal := ∑ c : Fin 1024, re A B q c * B c d

end AttnSpec

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.KernelRead.lean ====
/-
  The kernel body's two stored values read at an index: from one batch's query block and context block, entry (q, c)
  of the block stored to the attention output and entry (q, d) of the block stored to the weighted-context output
  are the attention block's functions of the two blocks read as matrices.

  The body is read stage by stage, each stage at an entry and each through the one before: the scores, the leaky
  rectifier, the column norms, the tempered normalised scores, the row maxima, the exponentials, the soft-max, the
  focal mask, the kept part, the re-normalised attention, and the weighted context.
-/
import proofs.«100951_j89361089561148_1_alg».proof.Proof.Gen.KernelIdeal.Skeleton
import proofs.«100951_j89361089561148_1_alg».proof.Proof.Spec
import proofs.«100951_j89361089561148_1_alg».proof.Proof.LibDotForms
import proofs.«100951_j89361089561148_1_alg».proof.Proof.LibPlainDot
import proofs.«100951_j89361089561148_1_alg».proof.Proof.LibRowSum
import proofs.«100951_j89361089561148_1_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.KernelRead

open Cert.KernelIdeal Cert.KernelIdeal.Gen Idealize.ShloMosaic Idealize.ShloMosaic.ValueIdx

/-! ## Reductions and layout steps read at an index, for any extents -/

section Generic

variable {m n : Nat}

/-- The reduced index c with row k put back is (k, c). -/
theorem colLift_ix2 (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the first axis of an [m, n] array from the zero word, at column c: the sum of the column. -/
theorem colSum_apply {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.add.neutral φ hφ) (c : Fin n) :
    multiReduction .add [0] (⟨1, ![n]⟩ : Shape) src acc h hφ hacc (ix1 c) = ∑ q : Fin m, src (ix2 q c) := by
  refine (Ideal.multiReduction_add_single src acc h hφ hacc (ix1 c)).trans ?_
  exact Finset.sum_congr rfl fun k _ => congrArg src (colLift_ix2 h c k)

/-- A maximum over the second axis of an [m, n] array, at row p: the fold of max over the row from the
    accumulator's value. -/
theorem rowMax_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] (⟨1, ![m]⟩ : Shape) src acc h hφ hacc (ix1 p)
      = (Finset.univ : Finset (Fin n)).fold max (Ideal.ofBits φ acc) (fun k => src (ix2 p k)) := by
  refine (Ideal.multiReduction_maximumf_single src acc h hφ hacc (ix1 p)).trans ?_
  exact Finset.fold_congr fun k _ => congrArg src (RowSum.lift_ix2 h p k)

/-- A per-row value kept as a column and spread back over the row: every entry of row p reads the row's value. -/
theorem keep_apply {α : Type} (w : (⟨1, ![m]⟩ : Shape).Idx → α)
    (h1 : (⟨1, ![m]⟩ : Shape).ShapeCasts ⟨2, ![m, 1]⟩) (h2 : (⟨2, ![m, 1]⟩ : Shape).Broadcasts ⟨2, ![m, n]⟩)
    (p : Fin m) (q : Fin n) :
    broadcastTo ⟨2, ![m, n]⟩ (shapeCast ⟨2, ![m, 1]⟩ w h1) h2 (ix2 p q) = w (ix1 p) :=
  (KeepdimsLayout.broadcastTo_a1_ab_apply _ h2 p q).trans (KeepdimsLayout.shapeCast_a_a1_apply w h1 p 0)

/-- The row sum from the zero word, kept and spread back: at (p, q) the zero word's value plus the sum of row p. -/
theorem rowSumKeep_apply (v : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ)
    (h1 : (⟨1, ![m]⟩ : Shape).ShapeCasts ⟨2, ![m, 1]⟩) (h2 : (⟨2, ![m, 1]⟩ : Shape).Broadcasts ⟨2, ![m, n]⟩)
    (p : Fin m) (q : Fin n) :
    broadcastTo ⟨2, ![m, n]⟩ (shapeCast ⟨2, ![m, 1]⟩ (multiReduction .add [1] (⟨1, ![m]⟩ : Shape) v 0x00000000#32 h hφ hacc) h1) h2 (ix2 p q)
      = AttnSpec.z0 + ∑ k : Fin n, v (ix2 p k) := by
  rw [keep_apply, RowSum.multiReduction_apply]
  show _ = Ideal.ofBits .f32 0x00000000#32 + _
  rw [Ideal.ofBits_zero_f32, zero_add]

end Generic

/-! ## The body's stages, each read at an index -/

section Pointwise

variable {s : Shape} {φ : FTy}

/-- The square root of an array, at an index. -/
theorem sqrt_apply (a : FVec Ideal s φ) (i : s.Idx) : sqrt a i = Ideal.sqrt (a i) := rfl

/-- The exponential of an array, at an index. -/
theorem exp_apply (a : FVec Ideal s φ) (i : s.Idx) : exp a i = Ideal.exp (a i) := rfl

end Pointwise

/-! The body's four kinds of reduction step at its own extents, and what each reads at an index. -/

/-- The sum of each column of a [128, 1024] array, from the zero word. -/
def colSum (v : FVec Ideal S128x1024 .f32) : FVec Ideal S1024 .f32 :=
  multiReduction .add [0] S1024 v 0x00000000#32 reduces_S128x1024_S1024 (.inl rfl) rfl

/-- The sum of each row, from the zero word, kept as a column and spread back over the row. -/
def rowSumK (v : FVec Ideal S128x1024 .f32) : FVec Ideal S128x1024 .f32 :=
  broadcastTo S128x1024 (shapeCast S128x1
    (multiReduction .add [1] S128 v 0x00000000#32 reduces_S128x1024_S128 (.inl rfl) rfl)
    shapeCasts_S128_S128x1) broadcasts_S128x1_S128x1024

/-- The maximum of each row, from minus infinity. -/
def rowMax (v : FVec Ideal S128x1024 .f32) : FVec Ideal S128 .f32 :=
  multiReduction .maximumf [1] S128 v 0xFF800000#32 reduces_S128x1024_S128 (.inl rfl) rfl

/-- A per-row value kept as a column and spread back over the row. -/
def keepRow (w : FVec Ideal S128 .f32) : FVec Ideal S128x1024 .f32 :=
  broadcastTo S128x1024 (shapeCast S128x1 w shapeCasts_S128_S128x1) broadcasts_S128x1_S128x1024

theorem colSum_at (v : FVec Ideal S128x1024 .f32) (c : Fin 1024) :
    colSum v (ix1 c) = ∑ q : Fin 128, v (ix2 q c) := colSum_apply v _ _ _ _ c

theorem rowSumK_at (v : FVec Ideal S128x1024 .f32) (q : Fin 128) (c : Fin 1024) :
    rowSumK v (ix2 q c) = AttnSpec.z0 + ∑ k : Fin 1024, v (ix2 q k) := rowSumKeep_apply v _ _ _ _ _ q c

theorem rowMax_at (v : FVec Ideal S128x1024 .f32) (q : Fin 128) :
    rowMax v (ix1 q) = (Finset.univ : Finset (Fin 1024)).fold max (Ideal.ofBits .f32 0xFF800000#32) (fun k => v (ix2 q k)) :=
  rowMax_apply v _ _ _ _ q

theorem keepRow_at (w : FVec Ideal S128 .f32) (q : Fin 128) (c : Fin 1024) : keepRow w (ix2 q c) = w (ix1 q) :=
  keep_apply w _ _ q c

variable (P0 : Vec Ideal S1x128x1024 .f32) (P1 : Vec Ideal S1x1024x1024 .f32)

/-- The query block as a matrix. -/
abbrev qmat : Fin 128 → Fin 1024 → EReal := fun q d => P0 (ix3 (0 : Fin 1) q d)
/-- The context block as a matrix. -/
abbrev cmat : Fin 1024 → Fin 1024 → EReal := fun c d => P1 (ix3 (0 : Fin 1) c d)

/-- The context operand of both products, at (c, d): the context matrix there. -/
theorem k0_pay4_apply (c d : Fin 1024) : k0_pay4 P1 (ix2 c d) = cmat P1 c d :=
  shapeCast_1ab_ab_apply P1 _ c d

/-- The scores: the query block times the transposed context block, into the zero accumulator. -/
def kS : FVec Ideal S128x1024 .f32 :=
  matmul dot_S128x1024_S1024x1024_S128x1024_1_1_0_0_n_n none
    (truncf .bf16 (shapeCast S128x1024 P0 shapeCasts_S1x128x1024_S128x1024) bitsLt_bf16_f32) (k0_pay4 P1)
    (constant S128x1024 .f32 0x00000000#32)

/-- The leaky rectifier of the scores. -/
def kL : FVec Ideal S128x1024 .f32 :=
  select (cmpf .oge (kS P0 P1) (broadcast S128x1024 (Scalar.ofBits (F := Ideal) .f32 0x00000000#32))) (kS P0 P1)
    (mulf (broadcast S128x1024 (Scalar.ofBits (F := Ideal) .f32 0x3DCCCCCD#32)) (kS P0 P1))

/-- The column norms, as a one-row array. -/
def kN : FVec Ideal S1x1024 .f32 :=
  addf (sqrt (shapeCast S1x1024 (colSum (mulf (kL P0 P1) (kL P0 P1))) shapeCasts_S1024_S1x1024))
    (broadcast S1x1024 (Scalar.ofBits (F := Ideal) .f32 0x322BCC77#32))

/-- The normalised scores times the temperature. -/
def kX : FVec Ideal S128x1024 .f32 :=
  mulf (divf (kL P0 P1) (broadcastTo S128x1024 (kN P0 P1) broadcasts_S1x1024_S128x1024))
    (broadcast S128x1024 (Scalar.ofBits (F := Ideal) .f32 0x41A00000#32))

/-- The row maxima, taken once more against minus infinity. -/
def kM : FVec Ideal S128 .f32 :=
  maximumf (broadcast S128 (Scalar.ofBits (F := Ideal) .f32 0xFF800000#32)) (rowMax (kX P0 P1))

/-- The exponentials of the shifted scores. -/
def kE : FVec Ideal S128x1024 .f32 := exp (subf (kX P0 P1) (keepRow (kM P0 P1)))

/-- The soft-max payload is the exponentials divided by their row sums. -/
theorem k0_pay5_eq : k0_pay5 P0 P1 = divf (kE P0 P1) (rowSumK (kE P0 P1)) := rfl

/-- The focal mask payload, over the soft-max payload. -/
theorem k0_pay6_eq : k0_pay6 P0 P1 =
    cmpf .ogt (subf (mulf (k0_pay5 P0 P1) (broadcast S128x1024 (Scalar.ofBits (F := Ideal) .f32 0x44800000#32)))
        (rowSumK (k0_pay5 P0 P1)))
      (broadcast S128x1024 (Scalar.ofBits (F := Ideal) .f32 0x00000000#32)) := rfl

/-- The kept part of an array under a mask: one times the entry where the mask is set, zero times it elsewhere. -/
def kT (p : FVec Ideal S128x1024 .f32) (mask : IVec S128x1024 1) : FVec Ideal S128x1024 .f32 :=
  mulf (select mask (broadcast S128x1024 (Scalar.ofBits (F := Ideal) .f32 0x3F800000#32))
    (broadcast S128x1024 (Scalar.ofBits (F := Ideal) .f32 0x00000000#32))) p

/-- The re-normalised payload is the kept part divided by its row sums. -/
theorem k0_pay1_eq (p : FVec Ideal S128x1024 .f32) (mask : IVec S128x1024 1) :
    k0_pay1 p mask = divf (kT p mask) (rowSumK (kT p mask)) := rfl

theorem kS_apply (q : Fin 128) (c : Fin 1024) : kS P0 P1 (ix2 q c) = AttnSpec.sc (qmat P0) (cmat P1) q c := by
  unfold kS AttnSpec.sc
  refine (DotForms.abt_matmul_zero_apply (M := 128) (K := 1024) (N := 1024) ⟨rfl, rfl, rfl, rfl, rfl, rfl⟩ none _ _ q c).trans ?_
  refine Finset.sum_congr rfl fun d _ => ?_
  exact congrArg₂ (· * ·) (shapeCast_1ab_ab_apply P0 _ q d) (k0_pay4_apply P1 c d)

theorem kL_apply (q : Fin 128) (c : Fin 1024) : kL P0 P1 (ix2 q c) = AttnSpec.lk (qmat P0) (cmat P1) q c := by
  show Scalar.select (Ideal.cmp .oge (kS P0 P1 (ix2 q c)) AttnSpec.z0) (kS P0 P1 (ix2 q c))
    (Ideal.ofBits .f32 0x3DCCCCCD#32 * kS P0 P1 (ix2 q c)) = _
  rw [kS_apply]; rfl

theorem kN_apply (u : Fin 1) (c : Fin 1024) : kN P0 P1 (ix2 u c) = AttnSpec.nrm (qmat P0) (cmat P1) c := by
  unfold kN AttnSpec.nrm
  rw [addf_apply, sqrt_apply, broadcast_apply, shapeCast_a_1a_apply, colSum_at]
  show _ = Ideal.sqrt (Ideal.ofBits .f32 0x00000000#32 + _) + _
  rw [Ideal.ofBits_zero_f32, zero_add]
  refine congrArg₂ (· + ·) (congrArg Ideal.sqrt (Finset.sum_congr rfl fun q _ => ?_)) rfl
  rw [mulf_apply, kL_apply]

theorem kX_apply (q : Fin 128) (c : Fin 1024) : kX P0 P1 (ix2 q c) = AttnSpec.xs (qmat P0) (cmat P1) q c := by
  unfold kX AttnSpec.xs
  rw [mulf_apply, divf_apply, broadcast_apply, broadcastTo_1b_ab_apply, kL_apply, kN_apply]
  rfl

theorem kM_apply (q : Fin 128) : kM P0 P1 (ix1 q) = AttnSpec.mx (qmat P0) (cmat P1) q := by
  unfold kM AttnSpec.mx
  rw [maximumf_apply, broadcast_apply, rowMax_at]
  exact congrArg₂ max rfl (Finset.fold_congr fun c _ => kX_apply P0 P1 q c)

theorem kE_apply (q : Fin 128) (c : Fin 1024) : kE P0 P1 (ix2 q c) = AttnSpec.ex (qmat P0) (cmat P1) q c := by
  unfold kE AttnSpec.ex
  rw [exp_apply, subf_apply, keepRow_at, kX_apply, kM_apply]

/-- The soft-max payload at (q, c). -/
theorem k0_pay5_apply (q : Fin 128) (c : Fin 1024) :
    k0_pay5 P0 P1 (ix2 q c) = AttnSpec.sm (qmat P0) (cmat P1) q c := by
  rw [k0_pay5_eq, divf_apply, rowSumK_at, kE_apply]
  unfold AttnSpec.sm
  exact congrArg (fun s => Ideal.div _ (AttnSpec.z0 + s)) (Finset.sum_congr rfl fun c' _ => kE_apply P0 P1 q c')

/-- The focal mask payload at (q, c): the comparison word of the focal weight against zero. -/
theorem k0_pay6_apply (q : Fin 128) (c : Fin 1024) :
    k0_pay6 P0 P1 (ix2 q c) = Ideal.cmp .ogt
      (AttnSpec.sm (qmat P0) (cmat P1) q c * Ideal.ofBits .f32 0x44800000#32
        - (AttnSpec.z0 + ∑ c' : Fin 1024, AttnSpec.sm (qmat P0) (cmat P1) q c')) AttnSpec.z0 := by
  rw [k0_pay6_eq, cmpf_apply, subf_apply, mulf_apply, rowSumK_at, k0_pay5_apply, broadcast_apply, broadcast_apply]
  exact congrArg (fun s => Ideal.cmp .ogt (_ - (AttnSpec.z0 + s)) AttnSpec.z0)
    (Finset.sum_congr rfl fun c' _ => k0_pay5_apply P0 P1 q c')

/-- The kept part of the soft-max payload under the focal mask payload, at (q, c). -/
theorem kT_apply (q : Fin 128) (c : Fin 1024) :
    kT (k0_pay5 P0 P1) (k0_pay6 P0 P1) (ix2 q c) = AttnSpec.tm (qmat P0) (cmat P1) q c := by
  unfold kT AttnSpec.tm AttnSpec.fh
  rw [mulf_apply, select_apply, k0_pay6_apply, k0_pay5_apply, broadcast_apply, broadcast_apply]
  rfl

/-- The re-normalised payload at (q, c). -/
theorem k0_pay1_apply (q : Fin 128) (c : Fin 1024) :
    k0_pay1 (k0_pay5 P0 P1) (k0_pay6 P0 P1) (ix2 q c) = AttnSpec.re (qmat P0) (cmat P1) q c := by
  rw [k0_pay1_eq, divf_apply, rowSumK_at, kT_apply]
  unfold AttnSpec.re
  exact congrArg (fun s => Ideal.div _ (AttnSpec.z0 + s)) (Finset.sum_congr rfl fun c' _ => kT_apply P0 P1 q c')

theorem reattn_apply (u : Fin 1) (q : Fin 128) (c : Fin 1024) :
    k0_pay2 (k0_pay5 P0 P1) (k0_pay6 P0 P1) (ix3 u q c) = AttnSpec.re (qmat P0) (cmat P1) q c :=
  (shapeCast_ab_1ab_apply (k0_pay1 (k0_pay5 P0 P1) (k0_pay6 P0 P1)) _ u q c).trans (k0_pay1_apply P0 P1 q c)

/-- The weighted-context payload is the re-normalised payload times the context operand, with a unit axis put in front. -/
theorem k0_pay3_eq (v5 : FVec Ideal S1024x1024 .bf16) (p : FVec Ideal S128x1024 .f32) (mask : IVec S128x1024 1) :
    k0_pay3 v5 p mask = shapeCast S1x128x1024
      (matmul dot_S128x1024_S1024x1024_S128x1024_1_0_0_1_n_n none (truncf .bf16 (k0_pay1 p mask) bitsLt_bf16_f32) v5
        (constant S128x1024 .f32 0x00000000#32))
      shapeCasts_S128x1024_S1x128x1024 := rfl

theorem wcontext_apply (u : Fin 1) (q : Fin 128) (d : Fin 1024) :
    k0_pay3 (k0_pay4 P1) (k0_pay5 P0 P1) (k0_pay6 P0 P1) (ix3 u q d) = AttnSpec.wc (qmat P0) (cmat P1) q d := by
  unfold AttnSpec.wc
  rw [k0_pay3_eq]
  refine (shapeCast_ab_1ab_apply _ _ u q d).trans ?_
  refine (PlainDot.matmul_zero_apply (M := 128) (K := 1024) (N := 1024) ⟨rfl, rfl, rfl, rfl, rfl, rfl⟩ none _ _ q d).trans ?_
  refine Finset.sum_congr rfl fun c _ => ?_
  exact congrArg₂ (· * ·) (k0_pay1_apply P0 P1 q c) (k0_pay4_apply P1 c d)

end Cert.KernelIdeal.KernelRead

end
-- ==== Proof.SpecArrays.lean ====
/-
  The attention block over whole arrays: entry (b, q, c) of the re-normalised attention and entry (b, q, d) of the
  weighted context are the block's functions of batch b's query matrix and context matrix.
-/
import proofs.«100951_j89361089561148_1_alg».proof.Proof.Spec
import Idealize.ShloMosaic.Lib.ValueIdx

noncomputable section

namespace AttnSpec

open Idealize.ShloMosaic Idealize.ShloMosaic.ValueIdx

/-- Batch b's query matrix out of the query array. -/
abbrev qOf (Q : (⟨3, ![128, 128, 1024]⟩ : Shape).Idx → EReal) (b : Fin 128) : Fin 128 → Fin 1024 → EReal :=
  fun q d => Q (ix3 b q d)

/-- Batch b's context matrix out of the context array. -/
abbrev cOf (C : (⟨3, ![128, 1024, 1024]⟩ : Shape).Idx → EReal) (b : Fin 128) : Fin 1024 → Fin 1024 → EReal :=
  fun c d => C (ix3 b c d)

/-- The re-normalised attention of every batch. -/
def reArr (Q : (⟨3, ![128, 128, 1024]⟩ : Shape).Idx → EReal) (C : (⟨3, ![128, 1024, 1024]⟩ : Shape).Idx → EReal) :
    (⟨3, ![128, 128, 1024]⟩ : Shape).Idx → EReal :=
  fun i => re (qOf Q (i 0)) (cOf C (i 0)) (i 1) (i 2)

/-- The weighted context of every batch. -/
def wcArr (Q : (⟨3, ![128, 128, 1024]⟩ : Shape).Idx → EReal) (C : (⟨3, ![128, 1024, 1024]⟩ : Shape).Idx → EReal) :
    (⟨3, ![128, 128, 1024]⟩ : Shape).Idx → EReal :=
  fun i => wc (qOf Q (i 0)) (cOf C (i 0)) (i 1) (i 2)

theorem reArr_ix3 (Q : (⟨3, ![128, 128, 1024]⟩ : Shape).Idx → EReal) (C : (⟨3, ![128, 1024, 1024]⟩ : Shape).Idx → EReal)
    (b : Fin 128) (q : Fin 128) (c : Fin 1024) : reArr Q C (ix3 b q c) = re (qOf Q b) (cOf C b) q c := rfl

theorem wcArr_ix3 (Q : (⟨3, ![128, 128, 1024]⟩ : Shape).Idx → EReal) (C : (⟨3, ![128, 1024, 1024]⟩ : Shape).Idx → EReal)
    (b : Fin 128) (q : Fin 128) (d : Fin 1024) : wcArr Q C (ix3 b q d) = wc (qOf Q b) (cOf C b) q d := rfl

end AttnSpec

end
-- ==== Proof.KernelValue.lean ====
/-
  The kernel's two output arrays after the run, as whole-array functions of the arguments.

  Grid point t works on batch t alone: its query block is batch t's query matrix, its context block batch t's
  context matrix, and the two blocks it writes back are batch t's rows of the attention output and of the
  weighted-context output.  The 128 blocks tile each output array, so after the run each output array holds the
  attention block's function of the two argument arrays at every index.
-/
import proofs.«100951_j89361089561148_1_alg».proof.Proof.KernelIdealBlocks
import proofs.«100951_j89361089561148_1_alg».proof.Proof.KernelRead
import proofs.«100951_j89361089561148_1_alg».proof.Proof.SpecArrays
import Idealize.ShloMosaic.Lib.ValueIdx
import Idealize.ShloMosaic.Lib.Pipeline.Value

set_option maxRecDepth 16384

noncomputable section

namespace Cert.KernelIdeal.AttnValue

open Cert.KernelIdeal Cert.KernelIdeal.Gen Cert.KernelIdeal.ValueP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The query array and the context array as the region finds them. -/
abbrev qarr (c : Dev nD) : FVec Ideal S128x128x1024 .f32 := V m c main_arg0
abbrev carr (c : Dev nD) : FVec Ideal S128x1024x1024 .f32 := V m c main_arg1

/-- The batch that grid point t works on. -/
abbrev bOf (t : Fin cfg0.N) : Fin 128 := ⟨t.val, lt_of_lt_of_eq t.isLt N_0⟩

/-- Point t's query block, entry (0, q, d), is the query array's entry (t, q, d). -/
theorem qblk_apply (c : Dev nD) (t : Fin cfg0.N) (q : Fin 128) (d : Fin 1024) :
    iblk m c 0 t (ix3 (0 : Fin 1) q d) = qarr m c (ix3 (bOf t) q d) := by
  obtain ⟨e0, e1, e2, -⟩ := idx_facts t
  show V m c main_arg0 (((cfg0.win 0).blk t).view.emb (ix3 (0 : Fin 1) q d)) = V m c main_arg0 _
  refine congrArg (V m c main_arg0) ?_
  funext a; apply Fin.ext
  match a with
  | ⟨0, _⟩ => show win0_0.index t (0 : Fin 3) * 1 + 1 * 0 = t.val; omega
  | ⟨1, _⟩ => show win0_0.index t (1 : Fin 3) * 128 + 1 * q.val = q.val; omega
  | ⟨2, _⟩ => show win0_0.index t (2 : Fin 3) * 1024 + 1 * d.val = d.val; omega

/-- Point t's context block, entry (0, c', d), is the context array's entry (t, c', d). -/
theorem cblk_apply (c : Dev nD) (t : Fin cfg0.N) (c' : Fin 1024) (d : Fin 1024) :
    iblk m c 1 t (ix3 (0 : Fin 1) c' d) = carr m c (ix3 (bOf t) c' d) := by
  obtain ⟨-, -, -, e0, e1, e2, -⟩ := idx_facts t
  show V m c main_arg1 (((cfg0.win 1).blk t).view.emb (ix3 (0 : Fin 1) c' d)) = V m c main_arg1 _
  refine congrArg (V m c main_arg1) ?_
  funext a; apply Fin.ext
  match a with
  | ⟨0, _⟩ => show win0_1.index t (0 : Fin 3) * 1 + 1 * 0 = t.val; omega
  | ⟨1, _⟩ => show win0_1.index t (1 : Fin 3) * 1024 + 1 * c'.val = c'.val; omega
  | ⟨2, _⟩ => show win0_1.index t (2 : Fin 3) * 1024 + 1 * d.val = d.val; omega

/-- The query block read as a matrix is batch t's query matrix. -/
theorem qmat_eq (c : Dev nD) (t : Fin cfg0.N) :
    KernelRead.qmat (iblk m c 0 t) = AttnSpec.qOf (qarr m c) (bOf t) :=
  funext fun q => funext fun d => qblk_apply m c t q d

/-- The context block read as a matrix is batch t's context matrix. -/
theorem cmat_eq (c : Dev nD) (t : Fin cfg0.N) :
    KernelRead.cmat (iblk m c 1 t) = AttnSpec.cOf (carr m c) (bOf t) :=
  funext fun c' => funext fun d => cblk_apply m c t c' d

/-- WHAT POINT t WRITES BACK to the attention output is block t of the whole-array attention. -/
theorem flushed3_eq (c : Dev nD) (t : Fin cfg0.N) :
    (dats m 0 c).flushed 3 t = ((cfg0.win 3).blk t).view.read (Elt Ideal) (AttnSpec.reArr (qarr m c) (carr m c)) := by
  rw [flushed3]
  unfold out0_3
  rw [View.canon_unit_zero hz]
  simp only [View.ld_unit_zero (S := S1x128x1024) hz, View.ld_unit_zero (S := S1x1024x1024) hz]
  obtain ⟨-, -, -, -, -, -, -, -, -, e0, e1, e2⟩ := idx_facts t
  funext j
  obtain ⟨u, q, c', rfl⟩ : ∃ (u : Fin 1) (q : Fin 128) (c' : Fin 1024), j = ix3 u q c' := ⟨j 0, j 1, j 2, eq_ix3 j⟩
  show k0_pay2 (k0_pay5 (iblk m c 0 t) (iblk m c 1 t)) (k0_pay6 (iblk m c 0 t) (iblk m c 1 t)) (ix3 u q c')
    = AttnSpec.reArr (qarr m c) (carr m c) (((cfg0.win 3).blk t).view.emb (ix3 u q c'))
  refine (KernelRead.reattn_apply (iblk m c 0 t) (iblk m c 1 t) u q c').trans ?_
  rw [qmat_eq, cmat_eq]
  have he : ((cfg0.win 3).blk t).view.emb (ix3 u q c') = ix3 (bOf t) q c' := by
    funext a; apply Fin.ext
    have hu : u.val = 0 := by omega
    match a with
    | ⟨0, _⟩ => show win0_3.index t (0 : Fin 3) * 1 + 1 * u.val = t.val; omega
    | ⟨1, _⟩ => show win0_3.index t (1 : Fin 3) * 128 + 1 * q.val = q.val; omega
    | ⟨2, _⟩ => show win0_3.index t (2 : Fin 3) * 1024 + 1 * c'.val = c'.val; omega
  rw [he]
  rfl

/-- WHAT POINT t WRITES BACK to the weighted-context output is block t of the whole-array weighted context. -/
theorem flushed2_eq (c : Dev nD) (t : Fin cfg0.N) :
    (dats m 0 c).flushed 2 t = ((cfg0.win 2).blk t).view.read (Elt Ideal) (AttnSpec.wcArr (qarr m c) (carr m c)) := by
  rw [flushed2]
  unfold out0_2
  rw [View.canon_unit_zero hz]
  simp only [View.ld_unit_zero (S := S1x128x1024) hz, View.ld_unit_zero (S := S1x1024x1024) hz]
  obtain ⟨-, -, -, -, -, -, e0, e1, e2, -⟩ := idx_facts t
  funext j
  obtain ⟨u, q, d, rfl⟩ : ∃ (u : Fin 1) (q : Fin 128) (d : Fin 1024), j = ix3 u q d := ⟨j 0, j 1, j 2, eq_ix3 j⟩
  show k0_pay3 (k0_pay4 (iblk m c 1 t)) (k0_pay5 (iblk m c 0 t) (iblk m c 1 t)) (k0_pay6 (iblk m c 0 t) (iblk m c 1 t)) (ix3 u q d)
    = AttnSpec.wcArr (qarr m c) (carr m c) (((cfg0.win 2).blk t).view.emb (ix3 u q d))
  refine (KernelRead.wcontext_apply (iblk m c 0 t) (iblk m c 1 t) u q d).trans ?_
  rw [qmat_eq, cmat_eq]
  have he : ((cfg0.win 2).blk t).view.emb (ix3 u q d) = ix3 (bOf t) q d := by
    funext a; apply Fin.ext
    have hu : u.val = 0 := by omega
    match a with
    | ⟨0, _⟩ => show win0_2.index t (0 : Fin 3) * 1 + 1 * u.val = t.val; omega
    | ⟨1, _⟩ => show win0_2.index t (1 : Fin 3) * 128 + 1 * q.val = q.val; omega
    | ⟨2, _⟩ => show win0_2.index t (2 : Fin 3) * 1024 + 1 * d.val = d.val; omega
  rw [he]
  rfl

/-- The grid point that works on batch b. -/
abbrev tOf (b : Fin 128) : Fin cfg0.N := ⟨b.val, lt_of_lt_of_eq b.isLt N_0.symm⟩

/-- Every index of the attention output lies in the block of the point of its batch. -/
theorem cover3 (i : S128x128x1024.Idx) :
    ∃ t : Fin cfg0.N, (cfg0.win 3).flush t = true ∧ i ∈ ((cfg0.win 3).blk t).view.set := by
  refine ⟨tOf (i 0), flush0_3 _, ?_⟩
  obtain ⟨-, -, -, -, -, -, -, -, -, e0, e1, e2⟩ := idx_facts (tOf (i 0))
  show i ∈ ((View.whole main_v0_1).slice (win0_3.rect (tOf (i 0)))).set
  rw [View.set_slice_whole, Rect.mem_set_unit]
  intro a
  have h0 : (i 0 : Nat) < 128 := (i 0).isLt
  have h1 : (i 1 : Nat) < 128 := (i 1).isLt
  have h2 : (i 2 : Nat) < 1024 := (i 2).isLt
  match a with
  | ⟨0, _⟩ => show win0_3.index (tOf (i 0)) (0 : Fin 3) * 1 ≤ (i 0 : Nat) ∧ (i 0 : Nat) < win0_3.index (tOf (i 0)) (0 : Fin 3) * 1 + 1
              rw [e0]; show (i 0 : Nat) * 1 ≤ (i 0 : Nat) ∧ (i 0 : Nat) < (i 0 : Nat) * 1 + 1; omega
  | ⟨1, _⟩ => show win0_3.index (tOf (i 0)) (1 : Fin 3) * 128 ≤ (i 1 : Nat) ∧ (i 1 : Nat) < win0_3.index (tOf (i 0)) (1 : Fin 3) * 128 + 128
              rw [e1]; omega
  | ⟨2, _⟩ => show win0_3.index (tOf (i 0)) (2 : Fin 3) * 1024 ≤ (i 2 : Nat) ∧ (i 2 : Nat) < win0_3.index (tOf (i 0)) (2 : Fin 3) * 1024 + 1024
              rw [e2]; omega

/-- Every index of the weighted-context output lies in the block of the point of its batch. -/
theorem cover2 (i : S128x128x1024.Idx) :
    ∃ t : Fin cfg0.N, (cfg0.win 2).flush t = true ∧ i ∈ ((cfg0.win 2).blk t).view.set := by
  refine ⟨tOf (i 0), flush0_2 _, ?_⟩
  obtain ⟨-, -, -, -, -, -, e0, e1, e2, -⟩ := idx_facts (tOf (i 0))
  show i ∈ ((View.whole main_v0_0).slice (win0_2.rect (tOf (i 0)))).set
  rw [View.set_slice_whole, Rect.mem_set_unit]
  intro a
  have h0 : (i 0 : Nat) < 128 := (i 0).isLt
  have h1 : (i 1 : Nat) < 128 := (i 1).isLt
  have h2 : (i 2 : Nat) < 1024 := (i 2).isLt
  match a with
  | ⟨0, _⟩ => show win0_2.index (tOf (i 0)) (0 : Fin 3) * 1 ≤ (i 0 : Nat) ∧ (i 0 : Nat) < win0_2.index (tOf (i 0)) (0 : Fin 3) * 1 + 1
              rw [e0]; show (i 0 : Nat) * 1 ≤ (i 0 : Nat) ∧ (i 0 : Nat) < (i 0 : Nat) * 1 + 1; omega
  | ⟨1, _⟩ => show win0_2.index (tOf (i 0)) (1 : Fin 3) * 128 ≤ (i 1 : Nat) ∧ (i 1 : Nat) < win0_2.index (tOf (i 0)) (1 : Fin 3) * 128 + 128
              rw [e1]; omega
  | ⟨2, _⟩ => show win0_2.index (tOf (i 0)) (2 : Fin 3) * 1024 ≤ (i 2 : Nat) ∧ (i 2 : Nat) < win0_2.index (tOf (i 0)) (2 : Fin 3) * 1024 + 1024
              rw [e2]; omega

/-- The attention output after the run is the whole-array attention of the arguments. -/
theorem final3 (c : Dev nD) : (dats m 0 c).arrAt 3 cfg0.N = AttnSpec.reArr (qarr m c) (carr m c) :=
  (dats m 0 c).arrAt_eq_of_cover 3 (AttnSpec.reArr (qarr m c) (carr m c)) (fun t _ => flushed3_eq m c t) cover3

/-- The weighted-context output after the run is the whole-array weighted context of the arguments. -/
theorem final2 (c : Dev nD) : (dats m 0 c).arrAt 2 cfg0.N = AttnSpec.wcArr (qarr m c) (carr m c) :=
  (dats m 0 c).arrAt_eq_of_cover 2 (AttnSpec.wcArr (qarr m c) (carr m c)) (fun t _ => flushed2_eq m c t) cover2

/-- The kernel's run, read: both output arrays at the attention block's functions of the arguments, the arguments
    unchanged. -/
theorem run : θ_run defs (onTc (τ := τ) (main (F := Ideal))) ⟨m, fun _ => 0, ρ⟩ fun r => ∀ c : Dev nD,
      r.2.mem ((c : Thread nD τ).loc main_v0_0) = AttnSpec.wcArr (m ((c : Thread nD τ).loc main_arg0)) (m ((c : Thread nD τ).loc main_arg1))
      ∧ r.2.mem ((c : Thread nD τ).loc main_v0_1) = AttnSpec.reArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.AttnValue

end
-- ==== Proof.RefStages.lean ====
/-
  The reference's array computation, stage by stage, as pure functions of the query array and the context array.

  Each stage is one step of the attention block carried out on whole arrays: the batched scores (context rows
  against query rows, laid out batch × context × query), the leaky rectifier, the division by each context row's
  norm over the queries, the transposition to batch × query × context with the temperature, the exponential of
  the scores shifted by their row maximum, the soft-max, the part of it the focal indicator keeps, its
  re-normalisation, and the weighted context.  A later stage names the earlier ones instead of repeating them.
-/
import proofs.«100951_j89361089561148_1_alg».proof.Proof.Gen.ReferenceIdeal

noncomputable section

namespace Cert.ReferenceIdeal.Stages

open Cert.ReferenceIdeal Cert.ReferenceIdeal.Gen Idealize.ShloMosaic

variable {F : FTy → Type} [FloatOps F]
variable (q : FVec F S128x128x1024 .f32) (ctx : FVec F S128x1024x1024 .f32)

/-- The scores, batch × context × query: each context row against each query row of the same batch. -/
def scores : FVec F S128x1024x128 .f32 :=
  Host.dotGeneral dot_S128x1024x1024_S128x128x1024_S128x1024x128_2_2_1_1_0_0 none ctx q

/-- The leaky rectifier of the scores. -/
def leaky : FVec F S128x1024x128 .f32 :=
  select (cmpf .oge (scores q ctx) (broadcastInDim S128x1024x128 ![] bcast_S_S128x1024x128 (constant S_ .f32 0x00000000#32)))
    (scores q ctx)
    (mulf (broadcastInDim S128x1024x128 ![] bcast_S_S128x1024x128 (id (constant S_ .f32 0x3DCCCCCD#32))) (scores q ctx))

/-- The rectified scores divided by their context row's norm over the queries (plus the small constant). -/
def normed : FVec F S128x1024x128 .f32 :=
  Host.divf (leaky q ctx)
    (broadcastInDim S128x1024x128 ![0, 1, 2] bcast_S128x1024x1_S128x1024x128_0_1_2
      (addf
        (Host.sqrt (broadcastInDim S128x1024x1 ![0, 1] bcast_S128x1024_S128x1024x1_0_1
          (Host.reduceAdd (mulf (leaky q ctx) (leaky q ctx)) (constant S_ .f32 0x00000000#32) reducesTo_S128x1024x128_S128x1024_d2 h_S_)))
        (broadcastInDim S128x1024x1 ![] bcast_S_S128x1024x1 (constant S_ .f32 0x322BCC77#32))))

/-- Transposed to batch × query × context and multiplied by the temperature. -/
def scaled : FVec F S128x128x1024 .f32 :=
  mulf (transpose S128x128x1024 [0, 2, 1] (normed q ctx) transposes_S128x1024x128_S128x128x1024_0_2_1)
    (broadcastInDim S128x128x1024 ![] bcast_S_S128x128x1024 (constant S_ .f32 0x41A00000#32))

/-- The exponential of the scaled scores less their row maximum. -/
def expo : FVec F S128x128x1024 .f32 :=
  Host.exp (subf (scaled q ctx)
    (broadcastInDim S128x128x1024 ![0, 1, 2] bcast_S128x128x1_S128x128x1024_0_1_2
      (broadcastInDim S128x128x1 ![0, 1] bcast_S128x128_S128x128x1_0_1
        (maximumf (broadcastInDim S128x128 ![] bcast_S_S128x128 (constant S_ .f32 0xFF800000#32))
          (Host.reduce FloatOps.maximumf (scaled q ctx) (constant S_ .f32 0xFF800000#32) reducesTo_S128x128x1024_S128x128_d2 h_S_)))))

/-- A row sum kept as a column and spread back over the row. -/
def rowSum (x : FVec F S128x128x1024 .f32) : FVec F S128x128x1024 .f32 :=
  broadcastInDim S128x128x1024 ![0, 1, 2] bcast_S128x128x1_S128x128x1024_0_1_2
    (broadcastInDim S128x128x1 ![0, 1] bcast_S128x128_S128x128x1_0_1
      (Host.reduceAdd x (constant S_ .f32 0x00000000#32) reducesTo_S128x128x1024_S128x128_d2 h_S_))

/-- The soft-max over the context axis. -/
def softmax : FVec F S128x128x1024 .f32 := Host.divf (expo q ctx) (rowSum (expo q ctx))

/-- The soft-max entries the focal indicator keeps (the others zero). -/
def kept : FVec F S128x128x1024 .f32 :=
  mulf
    (select
      (cmpf .ogt
        (subf (mulf (softmax q ctx) (broadcastInDim S128x128x1024 ![] bcast_S_S128x128x1024 (constant S_ .f32 0x44800000#32)))
          (rowSum (softmax q ctx)))
        (broadcastInDim S128x128x1024 ![] bcast_S_S128x128x1024 (constant S_ .f32 0x00000000#32)))
      (broadcastInDim S128x128x1024 ![] bcast_S_S128x128x1024 (constant S_ .f32 0x3F800000#32))
      (broadcastInDim S128x128x1024 ![] bcast_S_S128x128x1024 (constant S_ .f32 0x00000000#32)))
    (softmax q ctx)

/-- The re-normalised attention (the third result). -/
def reattn : FVec F S128x128x1024 .f32 := Host.divf (kept q ctx) (rowSum (kept q ctx))

/-- The weighted context (the second result). -/
def wcontext : FVec F S128x128x1024 .f32 :=
  Host.dotGeneral dot_S128x128x1024_S128x1024x1024_S128x128x1024_2_1_1_2_0_0 none (reattn q ctx) ctx

end Cert.ReferenceIdeal.Stages

end
-- ==== Proof.RefRun.lean ====
/-
  The reference program's run, read back: its @main is a straight line of host operations (the helper functions'
  bodies taken at their call sites), and after it the two computed results hold the stage functions of the arguments.
-/
import proofs.«100951_j89361089561148_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in order: its own fifty, with the rectifier's six and the select of the helper it
    calls standing where it is called (after the scores and the slope constant), and the indicator helper's two
    broadcasts and select where it is called (after the comparison and its two constants). A helper's operation is
    written over the buffers its call names. -/
abbrev ops : List (HloOp τ sig (Elt F)) :=
  [
    binary main_arg1 main_arg0 main_v0 ((fun l r => Host.dotGeneral dot_S128x1024x1024_S128x128x1024_S128x1024x128_2_2_1_1_0_0 none l r) : (⟨S128x1024x1024, .f32⟩ : BufTy).Contents (Elt F) → (⟨S128x128x1024, .f32⟩ : BufTy).Contents (Elt F) → (⟨S128x1024x128, .f32⟩ : BufTy).Contents (Elt F)),
    nullary main_cst (constant S_ .f32 0x3DCCCCCD#32),
    TRef.nullary main_call0.cst (constant S_ .f32 0x00000000#32),
    TRef.unary main_call0.cst main_call0.v0 (broadcastInDim S128x1024x128 ![] bcast_S_S128x1024x128),
    TRef.binary (.of main_v0 : TRef sig ⟨S128x1024x128, .f32⟩) main_call0.v0 main_call0.v1 (cmpf .oge),
    TRef.unary (.of main_cst : TRef sig ⟨S_, .f32⟩) main_call0.v2 id,
    TRef.unary main_call0.v2 main_call0.v3 (broadcastInDim S128x1024x128 ![] bcast_S_S128x1024x128),
    TRef.binary main_call0.v3 (.of main_v0 : TRef sig ⟨S128x1024x128, .f32⟩) main_call0.v4 mulf,
    TRef.ternary main_call0.v1 (.of main_v0 : TRef sig ⟨S128x1024x128, .f32⟩) main_call0.v4 main_call0.call0.v0 select,
    binary main_v1 main_v1 main_v2 (mulf : (⟨S128x1024x128, .f32⟩ : BufTy).Contents (Elt F) → (⟨S128x1024x128, .f32⟩ : BufTy).Contents (Elt F) → (⟨S128x1024x128, .f32⟩ : BufTy).Contents (Elt F)),
    nullary main_cst_0 (constant S_ .f32 0x00000000#32),
    binary main_v2 main_cst_0 main_v3 ((fun x v => Host.reduceAdd x v reducesTo_S128x1024x128_S128x1024_d2 h_S_) : (⟨S128x1024x128, .f32⟩ : BufTy).Contents (Elt F) → (⟨S_, .f32⟩ : BufTy).Contents (Elt F) → (⟨S128x1024, .f32⟩ : BufTy).Contents (Elt F)),
    unary main_v3 main_v4 (broadcastInDim S128x1024x1 ![0, 1] bcast_S128x1024_S128x1024x1_0_1 : (⟨S128x1024, .f32⟩ : BufTy).Contents (Elt F) → (⟨S128x1024x1, .f32⟩ : BufTy).Contents (Elt F)),
    unary main_v4 main_v5 (Host.sqrt : (⟨S128x1024x1, .f32⟩ : BufTy).Contents (Elt F) → (⟨S128x1024x1, .f32⟩ : BufTy).Contents (Elt F)),
    nullary main_cst_1 (constant S_ .f32 0x322BCC77#32),
    unary main_cst_1 main_v6 (broadcastInDim S128x1024x1 ![] bcast_S_S128x1024x1 : (⟨S_, .f32⟩ : BufTy).Contents (Elt F) → (⟨S128x1024x1, .f32⟩ : BufTy).Contents (Elt F)),
    binary main_v5 main_v6 main_v7 (addf : (⟨S128x1024x1, .f32⟩ : BufTy).Contents (Elt F) → (⟨S128x1024x1, .f32⟩ : BufTy).Contents (Elt F) → (⟨S128x1024x1, .f32⟩ : BufTy).Contents (Elt F)),
    unary main_v7 main_v8 (broadcastInDim S128x1024x128 ![0, 1, 2] bcast_S128x1024x1_S128x1024x128_0_1_2 : (⟨S128x1024x1, .f32⟩ : BufTy).Contents (Elt F) → (⟨S128x1024x128, .f32⟩ : BufTy).Contents (Elt F)),
    binary main_v1 main_v8 main_v9 (Host.divf : (⟨S128x1024x128, .f32⟩ : BufTy).Contents (Elt F) → (⟨S128x1024x128, .f32⟩ : BufTy).Contents (Elt F) → (⟨S128x1024x128, .f32⟩ : BufTy).Contents (Elt F)),
    unary main_v9 main_v10 ((transpose S128x128x1024 [0, 2, 1] · transposes_S128x1024x128_S128x128x1024_0_2_1) : (⟨S128x1024x128, .f32⟩ : BufTy).Contents (Elt F) → (⟨S128x128x1024, .f32⟩ : BufTy).Contents (Elt F)),
    nullary main_cst_2 (constant S_ .f32 0x41A00000#32),
    unary main_cst_2 main_v11 (broadcastInDim S128x128x1024 ![] bcast_S_S128x128x1024 : (⟨S_, .f32⟩ : BufTy).Contents (Elt F) → (⟨S128x128x1024, .f32⟩ : BufTy).Contents (Elt F)),
    binary main_v10 main_v11 main_v12 (mulf : (⟨S128x128x1024, .f32⟩ : BufTy).Contents (Elt F) → (⟨S128x128x1024, .f32⟩ : BufTy).Contents (Elt F) → (⟨S128x128x1024, .f32⟩ : BufTy).Contents (Elt F)),
    nullary main_cst_3 (constant S_ .f32 0xFF800000#32),
    binary main_v12 main_cst_3 main_v13 ((fun x v => Host.reduce FloatOps.maximumf x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    nullary main_cst_4 (constant S_ .f32 0xFF800000#32),
    unary main_cst_4 main_v14 (broadcastInDim S128x128 ![] bcast_S_S128x128 : (⟨S_, .f32⟩ : BufTy).Contents (Elt F) → (⟨S128x128, .f32⟩ : BufTy).Contents (Elt F)),
    binary main_v14 main_v13 main_v15 (maximumf : (⟨S128x128, .f32⟩ : BufTy).Contents (Elt F) → (⟨S128x128, .f32⟩ : BufTy).Contents (Elt F) → (⟨S128x128, .f32⟩ : BufTy).Contents (Elt F)),
    unary main_v15 main_v16 (broadcastInDim S128x128x1 ![0, 1] bcast_S128x128_S128x128x1_0_1 : (⟨S128x128, .f32⟩ : BufTy).Contents (Elt F) → (⟨S128x128x1, .f32⟩ : BufTy).Contents (Elt F)),
    unary main_v16 main_v17 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v12 main_v17 main_v18 (subf : (⟨S128x128x1024, .f32⟩ : BufTy).Contents (Elt F) → (⟨S128x128x1024, .f32⟩ : BufTy).Contents (Elt F) → (⟨S128x128x1024, .f32⟩ : BufTy).Contents (Elt F)),
    unary main_v18 main_v19 (Host.exp : (⟨S128x128x1024, .f32⟩ : BufTy).Contents (Elt F) → (⟨S128x128x1024, .f32⟩ : BufTy).Contents (Elt F)),
    nullary main_cst_5 (constant S_ .f32 0x00000000#32),
    binary main_v19 main_cst_5 main_v20 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v20 main_v21 (broadcastInDim S128x128x1 ![0, 1] bcast_S128x128_S128x128x1_0_1 : (⟨S128x128, .f32⟩ : BufTy).Contents (Elt F) → (⟨S128x128x1, .f32⟩ : BufTy).Contents (Elt F)),
    unary main_v21 main_v22 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v19 main_v22 main_v23 (Host.divf : (⟨S128x128x1024, .f32⟩ : BufTy).Contents (Elt F) → (⟨S128x128x1024, .f32⟩ : BufTy).Contents (Elt F) → (⟨S128x128x1024, .f32⟩ : BufTy).Contents (Elt F)),
    nullary main_cst_6 (constant S_ .f32 0x44800000#32),
    unary main_cst_6 main_v24 (broadcastInDim S128x128x1024 ![] bcast_S_S128x128x1024 : (⟨S_, .f32⟩ : BufTy).Contents (Elt F) → (⟨S128x128x1024, .f32⟩ : BufTy).Contents (Elt F)),
    binary main_v23 main_v24 main_v25 (mulf : (⟨S128x128x1024, .f32⟩ : BufTy).Contents (Elt F) → (⟨S128x128x1024, .f32⟩ : BufTy).Contents (Elt F) → (⟨S128x128x1024, .f32⟩ : BufTy).Contents (Elt F)),
    nullary main_cst_7 (constant S_ .f32 0x00000000#32),
    binary main_v23 main_cst_7 main_v26 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v26 main_v27 (broadcastInDim S128x128x1 ![0, 1] bcast_S128x128_S128x128x1_0_1 : (⟨S128x128, .f32⟩ : BufTy).Contents (Elt F) → (⟨S128x128x1, .f32⟩ : BufTy).Contents (Elt F)),
    unary main_v27 main_v28 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v25 main_v28 main_v29 (subf : (⟨S128x128x1024, .f32⟩ : BufTy).Contents (Elt F) → (⟨S128x128x1024, .f32⟩ : BufTy).Contents (Elt F) → (⟨S128x128x1024, .f32⟩ : BufTy).Contents (Elt F)),
    nullary main_cst_8 (constant S_ .f32 0x00000000#32),
    unary main_cst_8 main_v30 (broadcastInDim S128x128x1024 ![] bcast_S_S128x128x1024 : (⟨S_, .f32⟩ : BufTy).Contents (Elt F) → (⟨S128x128x1024, .f32⟩ : BufTy).Contents (Elt F)),
    binary main_v29 main_v30 main_v31 (cmpf .ogt : (⟨S128x128x1024, .f32⟩ : BufTy).Contents (Elt F) → (⟨S128x128x1024, .f32⟩ : BufTy).Contents (Elt F) → (⟨S128x128x1024, .i1⟩ : BufTy).Contents (Elt F)),
    nullary main_cst_9 (constant S_ .f32 0x3F800000#32),
    nullary main_cst_10 (constant S_ .f32 0x00000000#32),
    TRef.unary (.of main_cst_9 : TRef sig ⟨S_, .f32⟩) main_call1.v0 (broadcastInDim S128x128x1024 ![] bcast_S_S128x128x1024),
    TRef.unary (.of main_cst_10 : TRef sig ⟨S_, .f32⟩) main_call1.v1 (broadcastInDim S128x128x1024 ![] bcast_S_S128x128x1024),
    TRef.ternary (.of main_v31 : TRef sig ⟨S128x128x1024, .i1⟩) main_call1.v0 main_call1.v1 main_call1.v2 select,
    binary main_v32 main_v23 main_v33 (mulf : (⟨S128x128x1024, .f32⟩ : BufTy).Contents (Elt F) → (⟨S128x128x1024, .f32⟩ : BufTy).Contents (Elt F) → (⟨S128x128x1024, .f32⟩ : BufTy).Contents (Elt F)),
    nullary main_cst_11 (constant S_ .f32 0x00000000#32),
    binary main_v33 main_cst_11 main_v34 ((fun x v => Host.reduceAdd x v reducesTo_S128x128x1024_S128x128_d2 h_S_) : (⟨S128x128x1024, .f32⟩ : BufTy).Contents (Elt F) → (⟨S_, .f32⟩ : BufTy).Contents (Elt F) → (⟨S128x128, .f32⟩ : BufTy).Contents (Elt F)),
    unary main_v34 main_v35 (broadcastInDim S128x128x1 ![0, 1] bcast_S128x128_S128x128x1_0_1 : (⟨S128x128, .f32⟩ : BufTy).Contents (Elt F) → (⟨S128x128x1, .f32⟩ : BufTy).Contents (Elt F)),
    unary main_v35 main_v36 (broadcastInDim S128x128x1024 ![0, 1, 2] bcast_S128x128x1_S128x128x1024_0_1_2 : (⟨S128x128x1, .f32⟩ : BufTy).Contents (Elt F) → (⟨S128x128x1024, .f32⟩ : BufTy).Contents (Elt F)),
    binary main_v33 main_v36 main_v37 (Host.divf : (⟨S128x128x1024, .f32⟩ : BufTy).Contents (Elt F) → (⟨S128x128x1024, .f32⟩ : BufTy).Contents (Elt F) → (⟨S128x128x1024, .f32⟩ : BufTy).Contents (Elt F)),
    binary main_v37 main_arg1 main_v38 ((fun l r => Host.dotGeneral dot_S128x128x1024_S128x1024x1024_S128x128x1024_2_1_1_2_0_0 none l r) : (⟨S128x128x1024, .f32⟩ : BufTy).Contents (Elt F) → (⟨S128x1024x1024, .f32⟩ : BufTy).Contents (Elt F) → (⟨S128x128x1024, .f32⟩ : BufTy).Contents (Elt F)) ]

set_option maxRecDepth 4096 in
/-- @main is that straight line: the helpers' bodies unfolded at their calls, both sides are one chain of steps once
    the sequencing is re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., unary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., nullary_bufs_sub .., unary_bufs_sub .., binary_bufs_sub .., nullary_bufs_sub .., binary_bufs_sub ..,
    unary_bufs_sub .., unary_bufs_sub .., binary_bufs_sub .., nullary_bufs_sub .., unary_bufs_sub .., binary_bufs_sub ..,
    nullary_bufs_sub .., nullary_bufs_sub .., unary_bufs_sub .., unary_bufs_sub .., ternary_bufs_sub .., binary_bufs_sub ..,
    nullary_bufs_sub .., binary_bufs_sub .., unary_bufs_sub .., unary_bufs_sub .., binary_bufs_sub .., binary_bufs_sub ..⟩

/-- The query array is written by no operation. -/
theorem arg0_eq (V : Valuation τ sig (Elt F)) :
    after ops V (main_arg0 : DevRef τ sig) = V (main_arg0 : DevRef τ sig) := by
  after_results_simp

/-- The context array is written by no operation. -/
theorem arg1_eq (V : Valuation τ sig (Elt F)) :
    after ops V (main_arg1 : DevRef τ sig) = V (main_arg1 : DevRef τ sig) := by
  after_results_simp

-- the composed term is some forty operations deep
set_option maxRecDepth 8192 in
/-- The re-normalised attention's buffer after the line: each operation's result read at its own buffer is its function of
    its operands' contents, at any other buffer what was there; a helper's buffers carry their value's type, so the
    transports along that equation are the identity; what is left is the stage function's own text. -/
theorem v37_eq (V : Valuation τ sig (Elt F)) :
    after ops V (main_v37 : DevRef τ sig) = Stages.reattn (V (main_arg0 : DevRef τ sig)) (V (main_arg1 : DevRef τ sig)) := by
  after_results_simp
  simp only [TRef.ofBuf, TRef.toBuf, cast_eq]
  rfl

set_option maxRecDepth 8192 in
/-- The weighted context's buffer after the line, the same way: the last contraction over the re-normalised attention. -/
theorem v38_eq (V : Valuation τ sig (Elt F)) :
    after ops V (main_v38 : DevRef τ sig) = Stages.wcontext (V (main_arg0 : DevRef τ sig)) (V (main_arg1 : DevRef τ sig)) := by
  after_results_simp
  simp only [TRef.ofBuf, TRef.toBuf, cast_eq]
  rfl

/-- Every weakly fair execution of @main terminates; the weighted context and the re-normalised attention end at their
    stage functions of the arguments, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Stages.wcontext (m ((c.tc : Thread nD τ).loc main_arg0)) (m ((c.tc : Thread nD τ).loc main_arg1))
      ∧ r.2.mem ((c.tc : Thread nD τ).loc main_v37) = Stages.reattn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (v38_eq _), (h c main_v37).trans (v37_eq _),
      (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.LibRank3Last.lean ====
/-
  Rank-3 arrays reduced over, or spread along, their last axis, read at an index.

  Reducing an [a, b, n] array over its last axis leaves an [a, b] array: at (p, q) the host's sum is the initial value
  plus the sum of the n entries (p, q, ·), and the host's maximum is the fold of max from the initial value over them.
  Kept as a column the result gets a trailing unit axis, [a, b] to [a, b, 1], and is spread back along it,
  [a, b, 1] to [a, b, n]: entry (p, q, k) of the spread array reads the column's entry (p, q, 0), which reads the
  reduced array's entry (p, q).  Stated for any extents.
-/
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Rank3Last

open Idealize.ShloMosaic Idealize.ShloMosaic.ValueIdx

variable {a b n : Nat}

/-- The reduced index (p, q) with the last coordinate k put back is (p, q, k). -/
theorem lift_ix3 (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- The host's sum over the last axis, at (p, q): the initial value plus the sum of the n entries (p, q, ·). -/
theorem hostReduceAdd_last_apply {φ : FTy} {u : Shape} (x : FVec Ideal ⟨3, ![a, b, n]⟩ φ) (init : u.Idx → Ideal φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduceAdd x init h' hu (ix2 p q) = init (Shape.Idx.first hu) + ∑ k : Fin n, x (ix3 p q k) := by
  refine (hostReduceAdd_apply x init h' hu (ix2 p q)).trans ?_
  refine (Ideal.hostReduceAdd_single h' h x (init (Shape.Idx.first hu)) (ix2 p q)).trans ?_
  exact congrArg (init (Shape.Idx.first hu) + ·) (Finset.sum_congr rfl fun k _ => congrArg x (lift_ix3 h p q k))

/-- The host's maximum over the last axis, at (p, q): the fold of max from the initial value over the entries (p, q, ·). -/
theorem hostReduceMax_last_apply {φ : FTy} {u : Shape} (x : FVec Ideal ⟨3, ![a, b, n]⟩ φ) (init : u.Idx → Ideal φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  refine (Host.reduce_eq_fold_single (FloatOps.maximumf (F := Ideal) (φ := φ)) x init h' h hu (ix2 p q)).trans ?_
  exact congrArg (fun f => (Finset.univ : Finset (Fin n)).fold max (init (Shape.Idx.first hu)) f)
    (funext fun k => congrArg x (lift_ix3 h p q k))

/-- An [a, b] array given a trailing unit axis reads, at (p, q, u), the operand at (p, q). -/
theorem broadcastInDim_ab_ab1_apply {α : Type} (x : (⟨2, ![a, b]⟩ : Shape).Idx → α)
    (h : (⟨2, ![a, b]⟩ : Shape).BroadcastsInDim ⟨3, ![a, b, 1]⟩ (![0, 1] : Fin 2 → Fin 3)) (p : Fin a) (q : Fin b) (u : Fin 1) :
    broadcastInDim ⟨3, ![a, b, 1]⟩ (![0, 1] : Fin 2 → Fin 3) h x (ix3 p q u) = x (ix2 p q) := by
  refine broadcastInDim_apply (![0, 1] : Fin 2 → Fin 3) h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1] array spread along its last axis to [a, b, n] reads, at (p, q, k), the operand at (p, q, 0). -/
theorem broadcastInDim_ab1_abn_apply {α : Type} (x : (⟨3, ![a, b, 1]⟩ : Shape).Idx → α)
    (h : (⟨3, ![a, b, 1]⟩ : Shape).BroadcastsInDim ⟨3, ![a, b, n]⟩ (![0, 1, 2] : Fin 3 → Fin 3)) (p : Fin a) (q : Fin b) (k : Fin n) :
    broadcastInDim ⟨3, ![a, b, n]⟩ (![0, 1, 2] : Fin 3 → Fin 3) h x (ix3 p q k) = x (ix3 p q (0 : Fin 1)) := by
  refine broadcastInDim_apply (![0, 1, 2] : Fin 3 → Fin 3) h x (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Rank3Last

end
-- ==== Proof.RefRead.lean ====
/-
  The reference's stages read at an index: entry (b, q, c) of the re-normalised attention and entry (b, q, d) of the
  weighted context are the attention block's functions of batch b's query and context matrices.
-/
import proofs.«100951_j89361089561148_1_alg».proof.Proof.RefStages
import proofs.«100951_j89361089561148_1_alg».proof.Proof.Spec
import proofs.«100951_j89361089561148_1_alg».proof.Proof.LibRank3Last
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## The two batched products read at an entry -/

/-- The scores' dimension numbers: batch axis 0 with 0, each operand's last axis contracted. -/
abbrev dSc : DotDims S128x1024x1024 S128x128x1024 S128x1024x128 :=
  dot_S128x1024x1024_S128x128x1024_S128x1024x128_2_2_1_1_0_0
/-- The weighted context's dimension numbers: batch axis 0 with 0, the left operand's last axis against the right
    operand's middle one. -/
abbrev dWc : DotDims S128x128x1024 S128x1024x1024 S128x128x1024 :=
  dot_S128x128x1024_S128x1024x1024_S128x128x1024_2_1_1_2_0_0

theorem dSc_lhs_0 (j : S128x1024x128.Idx) (k : dSc.contr.Idx) : (dSc.lhsIdx j k 0 : ℕ) = j 0 := rfl
theorem dSc_lhs_1 (j : S128x1024x128.Idx) (k : dSc.contr.Idx) : (dSc.lhsIdx j k 1 : ℕ) = j 1 := rfl
theorem dSc_rhs_0 (j : S128x1024x128.Idx) (k : dSc.contr.Idx) : (dSc.rhsIdx j k 0 : ℕ) = j 0 := rfl
theorem dSc_rhs_1 (j : S128x1024x128.Idx) (k : dSc.contr.Idx) : (dSc.rhsIdx j k 1 : ℕ) = j 2 := rfl
theorem dSc_lc : dSc.lhsContracting = [2] := rfl
theorem dSc_rc : dSc.rhsContracting = [2] := rfl
theorem dSc_rank : dSc.contr.rank = 1 := rfl
theorem dSc_size : dSc.contr.size ⟨0, by rw [dSc_rank]; exact Nat.one_pos⟩ = 1024 := rfl

/-- The scores' sum at (b, c, q): over the feature axis, context row c of batch b against query row q of batch b. -/
theorem dSc_sum (lhs : S128x1024x1024.Idx → EReal) (rhs : S128x128x1024.Idx → EReal) (b : Fin 128) (c : Fin 1024) (q : Fin 128) :
    ∑ k : dSc.contr.Idx, lhs (dSc.lhsIdx (ix3 b c q) k) * rhs (dSc.rhsIdx (ix3 b c q) k)
      = ∑ i : Fin 1024, lhs (ix3 b c i) * rhs (ix3 b q i) := by
  rw [← Equiv.sum_comp (contrEquiv1 dSc 1024 dSc_rank dSc_size).symm]
  refine Finset.sum_congr rfl fun i _ => ?_
  have hk := contrEquiv1_symm_val dSc 1024 dSc_rank dSc_size i
  have el : dSc.lhsIdx (ix3 b c q) ((contrEquiv1 dSc 1024 dSc_rank dSc_size).symm i) = ix3 b c i := by
    funext ax; refine Fin.ext ?_
    match ax with
    | ⟨0, _⟩ => exact dSc_lhs_0 _ _
    | ⟨1, _⟩ => exact dSc_lhs_1 _ _
    | ⟨2, _⟩ => exact (dSc.lhsIdx_val_of_single dSc_lc _ _).trans hk
  have er : dSc.rhsIdx (ix3 b c q) ((contrEquiv1 dSc 1024 dSc_rank dSc_size).symm i) = ix3 b q i := by
    funext ax; refine Fin.ext ?_
    match ax with
    | ⟨0, _⟩ => exact dSc_rhs_0 _ _
    | ⟨1, _⟩ => exact dSc_rhs_1 _ _
    | ⟨2, _⟩ => exact (dSc.rhsIdx_val_of_single dSc_rc _ _).trans hk
  rw [el, er]

theorem dWc_lhs_0 (j : S128x128x1024.Idx) (k : dWc.contr.Idx) : (dWc.lhsIdx j k 0 : ℕ) = j 0 := rfl
theorem dWc_lhs_1 (j : S128x128x1024.Idx) (k : dWc.contr.Idx) : (dWc.lhsIdx j k 1 : ℕ) = j 1 := rfl
theorem dWc_rhs_0 (j : S128x128x1024.Idx) (k : dWc.contr.Idx) : (dWc.rhsIdx j k 0 : ℕ) = j 0 := rfl
theorem dWc_rhs_2 (j : S128x128x1024.Idx) (k : dWc.contr.Idx) : (dWc.rhsIdx j k 2 : ℕ) = j 2 := rfl
theorem dWc_lc : dWc.lhsContracting = [2] := rfl
theorem dWc_rc : dWc.rhsContracting = [1] := rfl
theorem dWc_rank : dWc.contr.rank = 1 := rfl
theorem dWc_size : dWc.contr.size ⟨0, by rw [dWc_rank]; exact Nat.one_pos⟩ = 1024 := rfl

/-- The weighted context's sum at (b, q, d): over the context rows, row q of the left operand against column d of
    batch b's context matrix. -/
theorem dWc_sum (lhs : S128x128x1024.Idx → EReal) (rhs : S128x1024x1024.Idx → EReal) (b : Fin 128) (q : Fin 128) (d : Fin 1024) :
    ∑ k : dWc.contr.Idx, lhs (dWc.lhsIdx (ix3 b q d) k) * rhs (dWc.rhsIdx (ix3 b q d) k)
      = ∑ i : Fin 1024, lhs (ix3 b q i) * rhs (ix3 b i d) := by
  rw [← Equiv.sum_comp (contrEquiv1 dWc 1024 dWc_rank dWc_size).symm]
  refine Finset.sum_congr rfl fun i _ => ?_
  have hk := contrEquiv1_symm_val dWc 1024 dWc_rank dWc_size i
  have el : dWc.lhsIdx (ix3 b q d) ((contrEquiv1 dWc 1024 dWc_rank dWc_size).symm i) = ix3 b q i := by
    funext ax; refine Fin.ext ?_
    match ax with
    | ⟨0, _⟩ => exact dWc_lhs_0 _ _
    | ⟨1, _⟩ => exact dWc_lhs_1 _ _
    | ⟨2, _⟩ => exact (dWc.lhsIdx_val_of_single dWc_lc _ _).trans hk
  have er : dWc.rhsIdx (ix3 b q d) ((contrEquiv1 dWc 1024 dWc_rank dWc_size).symm i) = ix3 b i d := by
    funext ax; refine Fin.ext ?_
    match ax with
    | ⟨0, _⟩ => exact dWc_rhs_0 _ _
    | ⟨1, _⟩ => exact (dWc.rhsIdx_val_of_single dWc_rc _ _).trans hk
    | ⟨2, _⟩ => exact dWc_rhs_2 _ _
  rw [el, er]

/-! ## The layout steps and reductions of the stages, at their literal shapes -/

/-- A constant spread over any shape reads the constant's value. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A [128, 1024] array given a trailing unit axis. -/
theorem unitCtx_apply {α : Type} (x : S128x1024.Idx → α) (b : Fin 128) (c : Fin 1024) (u : Fin 1) :
    broadcastInDim S128x1024x1 ![0, 1] bcast_S128x1024_S128x1024x1_0_1 x (ix3 b c u) = x (ix2 b c) :=
  Rank3Last.broadcastInDim_ab_ab1_apply x _ b c u

/-- A [128, 1024, 1] column spread over the 128 queries. -/
theorem colCtx_apply {α : Type} (x : S128x1024x1.Idx → α) (b : Fin 128) (c : Fin 1024) (q : Fin 128) :
    broadcastInDim S128x1024x128 ![0, 1, 2] bcast_S128x1024x1_S128x1024x128_0_1_2 x (ix3 b c q) = x (ix3 b c (0 : Fin 1)) :=
  Rank3Last.broadcastInDim_ab1_abn_apply x _ b c q

/-- A [128, 128] array given a trailing unit axis. -/
theorem unitQ_apply {α : Type} (x : S128x128.Idx → α) (b : Fin 128) (q : Fin 128) (u : Fin 1) :
    broadcastInDim S128x128x1 ![0, 1] bcast_S128x128_S128x128x1_0_1 x (ix3 b q u) = x (ix2 b q) :=
  Rank3Last.broadcastInDim_ab_ab1_apply x _ b q u

/-- A [128, 128, 1] column spread over the 1024 context rows. -/
theorem colQ_apply {α : Type} (x : S128x128x1.Idx → α) (b : Fin 128) (q : Fin 128) (c : Fin 1024) :
    broadcastInDim S128x128x1024 ![0, 1, 2] bcast_S128x128x1_S128x128x1024_0_1_2 x (ix3 b q c) = x (ix3 b q (0 : Fin 1)) :=
  Rank3Last.broadcastInDim_ab1_abn_apply x _ b q c

/-- The sum over the queries of a [128, 1024, 128] array, from a constant's value. -/
theorem sumCtx_apply (x : FVec Ideal S128x1024x128 .f32) (w : BitVec 32) (b : Fin 128) (c : Fin 1024) :
    Host.reduceAdd x (constant (F := Ideal) S_ .f32 w) reducesTo_S128x1024x128_S128x1024_d2 h_S_ (ix2 b c)
      = Ideal.ofBits .f32 w + ∑ q : Fin 128, x (ix3 b c q) :=
  Rank3Last.hostReduceAdd_last_apply x _ _ (by decide) _ b c

/-- The sum over the context rows of a [128, 128, 1024] array, from a constant's value. -/
theorem sumQ_apply (x : FVec Ideal S128x128x1024 .f32) (w : BitVec 32) (b : Fin 128) (q : Fin 128) :
    Host.reduceAdd x (constant (F := Ideal) S_ .f32 w) reducesTo_S128x128x1024_S128x128_d2 h_S_ (ix2 b q)
      = Ideal.ofBits .f32 w + ∑ c : Fin 1024, x (ix3 b q c) :=
  Rank3Last.hostReduceAdd_last_apply x _ _ (by decide) _ b q

/-- The maximum over the context rows of a [128, 128, 1024] array, from a constant's value. -/
theorem maxQ_apply (x : FVec Ideal S128x128x1024 .f32) (w : BitVec 32) (b : Fin 128) (q : Fin 128) :
    Host.reduce (FloatOps.maximumf (F := Ideal) (φ := .f32)) x (constant (F := Ideal) S_ .f32 w) reducesTo_S128x128x1024_S128x128_d2 h_S_ (ix2 b q)
      = (Finset.univ : Finset (Fin 1024)).fold max (Ideal.ofBits .f32 w) (fun c => x (ix3 b q c)) :=
  Rank3Last.hostReduceMax_last_apply x _ _ (by decide) _ b q

/-- The stack of matrices transposed: entry (b, q, c) is the operand's entry (b, c, q). -/
theorem swap_apply {α : Type} (x : S128x1024x128.Idx → α) (b : Fin 128) (q : Fin 128) (c : Fin 1024) :
    transpose S128x128x1024 [0, 2, 1] x transposes_S128x1024x128_S128x128x1024_0_2_1 (ix3 b q c) = x (ix3 b c q) :=
  transpose_ix3_021_apply x _ b q c

/-- The host's square root at an index. -/
theorem hostSqrt_apply {s : Shape} {φ : FTy} (x : FVec Ideal s φ) (i : s.Idx) : Host.sqrt x i = Ideal.sqrt (x i) := rfl

/-- The host's exponential at an index. -/
theorem hostExp_apply {s : Shape} {φ : FTy} (x : FVec Ideal s φ) (i : s.Idx) : Host.exp x i = Ideal.exp (x i) := rfl

variable (Q : FVec Ideal S128x128x1024 .f32) (C : FVec Ideal S128x1024x1024 .f32)

/-- Batch b's query matrix. -/
abbrev qmat (b : Fin 128) : Fin 128 → Fin 1024 → EReal := fun q d => Q (ix3 b q d)
/-- Batch b's context matrix. -/
abbrev cmat (b : Fin 128) : Fin 1024 → Fin 1024 → EReal := fun c d => C (ix3 b c d)

/-! ## The stages, one by one -/

/-- The scores at (b, c, q): context row c against query row q of batch b; the product's factors commute. -/
theorem scores_apply (b : Fin 128) (c : Fin 1024) (q : Fin 128) :
    Stages.scores Q C (ix3 b c q) = AttnSpec.sc (qmat Q b) (cmat C b) q c := by
  unfold Stages.scores AttnSpec.sc
  refine (Ideal.dotGeneral_apply dSc none .single C Q (ix3 b c q)).trans ?_
  refine (dSc_sum C Q b c q).trans ?_
  exact Finset.sum_congr rfl fun i _ => mul_comm _ _

/-- The leaky rectifier at (b, c, q). -/
theorem leaky_apply (b : Fin 128) (c : Fin 1024) (q : Fin 128) :
    Stages.leaky Q C (ix3 b c q) = AttnSpec.lk (qmat Q b) (cmat C b) q c := by
  unfold Stages.leaky AttnSpec.lk
  simp only [select_apply, cmpf_apply, mulf_apply, scores_apply, id_eq]
  rw [splat_apply, splat_apply]
  rfl

/-- The normalised score at (b, c, q): the rectified score over its context row's norm. -/
theorem normed_apply (b : Fin 128) (c : Fin 1024) (q : Fin 128) :
    Stages.normed Q C (ix3 b c q)
      = Ideal.div (AttnSpec.lk (qmat Q b) (cmat C b) q c) (AttnSpec.nrm (qmat Q b) (cmat C b) c) := by
  unfold Stages.normed AttnSpec.nrm
  rw [hostDivf_apply, colCtx_apply, addf_apply, hostSqrt_apply, unitCtx_apply, sumCtx_apply, splat_apply, leaky_apply]
  simp only [mulf_apply, leaky_apply]

/-- The scaled score at (b, q, c). -/
theorem scaled_apply (b : Fin 128) (q : Fin 128) (c : Fin 1024) :
    Stages.scaled Q C (ix3 b q c) = AttnSpec.xs (qmat Q b) (cmat C b) q c := by
  unfold Stages.scaled AttnSpec.xs
  rw [mulf_apply, swap_apply, splat_apply, normed_apply]

/-- The shifted exponential at (b, q, c). -/
theorem expo_apply (b : Fin 128) (q : Fin 128) (c : Fin 1024) :
    Stages.expo Q C (ix3 b q c) = AttnSpec.ex (qmat Q b) (cmat C b) q c := by
  unfold Stages.expo AttnSpec.ex AttnSpec.mx
  rw [hostExp_apply, subf_apply, colQ_apply, unitQ_apply, maximumf_apply, splat_apply, maxQ_apply, scaled_apply]
  simp only [scaled_apply]

/-- A kept row sum at (b, q, c): the zero word's value plus the sum of row (b, q). -/
theorem rowSum_apply (x : FVec Ideal S128x128x1024 .f32) (b : Fin 128) (q : Fin 128) (c : Fin 1024) :
    Stages.rowSum x (ix3 b q c) = Ideal.ofBits .f32 0x00000000#32 + ∑ c' : Fin 1024, x (ix3 b q c') := by
  unfold Stages.rowSum
  rw [colQ_apply, unitQ_apply, sumQ_apply]

/-- The soft-max at (b, q, c). -/
theorem softmax_apply (b : Fin 128) (q : Fin 128) (c : Fin 1024) :
    Stages.softmax Q C (ix3 b q c) = AttnSpec.sm (qmat Q b) (cmat C b) q c := by
  unfold Stages.softmax AttnSpec.sm
  rw [hostDivf_apply, rowSum_apply, expo_apply]
  simp only [expo_apply]

/-- The kept part of the soft-max at (b, q, c). -/
theorem kept_apply (b : Fin 128) (q : Fin 128) (c : Fin 1024) :
    Stages.kept Q C (ix3 b q c) = AttnSpec.tm (qmat Q b) (cmat C b) q c := by
  unfold Stages.kept AttnSpec.tm AttnSpec.fh
  simp only [mulf_apply, select_apply, cmpf_apply, subf_apply, rowSum_apply, softmax_apply]
  rw [splat_apply, splat_apply, splat_apply]
  rfl

theorem reattn_apply (b : Fin 128) (q : Fin 128) (c : Fin 1024) :
    Stages.reattn Q C (ix3 b q c) = AttnSpec.re (qmat Q b) (cmat C b) q c := by
  unfold Stages.reattn AttnSpec.re
  rw [hostDivf_apply, rowSum_apply, kept_apply]
  simp only [kept_apply]

theorem wcontext_apply (b : Fin 128) (q : Fin 128) (d : Fin 1024) :
    Stages.wcontext Q C (ix3 b q d) = AttnSpec.wc (qmat Q b) (cmat C b) q d := by
  unfold Stages.wcontext AttnSpec.wc
  refine (Ideal.dotGeneral_apply dWc none .single (Stages.reattn Q C) C (ix3 b q d)).trans ?_
  refine (dWc_sum (Stages.reattn Q C) C b q d).trans ?_
  exact Finset.sum_congr rfl fun i _ => by rw [reattn_apply]

end Cert.ReferenceIdeal.RefRead

end
-- ==== Proof.lean ====
/-
  The kernel computes, batch by batch, an attention block: scores of every query row against every context row,
  a leaky rectifier, a division by each context row's norm over the queries, a temperature soft-max over the context
  rows, a focal re-weighting that keeps the soft-max entries above their row's mean and re-normalises them, and the
  context rows weighted by the result.  The reference computes the same block on whole arrays, with the scores laid
  out batch × context × query and transposed afterwards.  Read as functions of the two argument arrays over the
  extended reals the two programs agree entry by entry: every step is the same operation on the same numbers, a
  sum is the same in any order, a change of float format is the identity, and the only difference left, the order
  of the two factors in the first product, is commutativity.  No finiteness of the inputs is used.

  The three frames: the kernel's two are the generated frame certificates; the reference's is its run (a straight
  line of host operations) with the values dropped.  The idealization rewrote nothing, so it preserves the kernel
  trivially.  The value claim sets the kernel's run (each output array the attention block's function of the
  arguments, from the blocks the grid points write back) beside the reference's run (its stages read at an index).
-/
import proofs.«100951_j89361089561148_1_alg».proof.Defs
import proofs.«100951_j89361089561148_1_alg».proof.Proof.Gen.Kernel
import proofs.«100951_j89361089561148_1_alg».proof.Proof.Gen.Kernel.Frame
import proofs.«100951_j89361089561148_1_alg».proof.Proof.Gen.KernelIdeal
import proofs.«100951_j89361089561148_1_alg».proof.Proof.Gen.KernelIdeal.Frame
import proofs.«100951_j89361089561148_1_alg».proof.Proof.Gen.ReferenceIdeal
import proofs.«100951_j89361089561148_1_alg».proof.Proof.Gen.Pre_finite_inputs
import proofs.«100951_j89361089561148_1_alg».proof.Proof.KernelValue
import proofs.«100951_j89361089561148_1_alg».proof.Proof.RefRun
import proofs.«100951_j89361089561148_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the two computed results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The reference's re-normalised attention array is the whole-array attention of the arguments. -/
theorem ref_reattn (Q : FVec Ideal Cert.ReferenceIdeal.S128x128x1024 .f32) (C : FVec Ideal Cert.ReferenceIdeal.S128x1024x1024 .f32) :
    Cert.ReferenceIdeal.Stages.reattn Q C = AttnSpec.reArr Q C := by
  funext i
  obtain ⟨b, q, c, rfl⟩ : ∃ (b : Fin 128) (q : Fin 128) (c : Fin 1024), i = ix3 b q c := ⟨i 0, i 1, i 2, eq_ix3 i⟩
  exact Cert.ReferenceIdeal.RefRead.reattn_apply Q C b q c

/-- The reference's weighted-context array is the whole-array weighted context of the arguments. -/
theorem ref_wcontext (Q : FVec Ideal Cert.ReferenceIdeal.S128x128x1024 .f32) (C : FVec Ideal Cert.ReferenceIdeal.S128x1024x1024 .f32) :
    Cert.ReferenceIdeal.Stages.wcontext Q C = AttnSpec.wcArr Q C := by
  funext i
  obtain ⟨b, q, d, rfl⟩ : ∃ (b : Fin 128) (q : Fin 128) (d : Fin 1024), i = ix3 b q d := ⟨i 0, i 1, i 2, eq_ix3 i⟩
  exact Cert.ReferenceIdeal.RefRead.wcontext_apply Q C b q d

/-- From memories that agree on the arguments both programs end with the query array unchanged, the weighted context
    and the re-normalised attention of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => AttnSpec.wcArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => AttnSpec.reArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).2.2.1, (h c).1, (h c).2.1, (h c).2.2.1, (h c).2.2.2⟩)
      (Cert.KernelIdeal.AttnValue.run m ρ)
  · refine (θ_run Cert.ReferenceIdeal.defs _ _).mono (fun _ h c => ⟨?_, ?_, ?_, (h c).2.2.1, (h c).2.2.2⟩)
      (Cert.ReferenceIdeal.RefRun.run (F := Ideal) m' ρ')
    · exact (h c).2.2.1.trans (hagree c).1
    · rw [(h c).1, (hagree c).1, (hagree c).2]
      exact ref_wcontext _ _
    · rw [(h c).2.1, (hagree c).1, (hagree c).2]
      exact ref_reattn _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
